-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S16 : Shape := ⟨1, ![16]⟩
abbrev S5504x2048 : Shape := ⟨2, ![5504, 2048]⟩
abbrev S2048x5504 : Shape := ⟨2, ![2048, 5504]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2x4096x2048 .f32) (main_arg1 : FVec F S16 .f32) (main_arg2 : IVec S5504x2048 32) (main_arg3 : IVec S5504x2048 32) (main_arg4 : IVec S2048x5504 32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S2x4096x2048 : Shape := ⟨3, ![2, 4096, 2048]⟩
abbrev S16 : Shape := ⟨1, ![16]⟩
abbrev S5504x2048 : Shape := ⟨2, ![5504, 2048]⟩
abbrev S2048x5504 : Shape := ⟨2, ![2048, 5504]⟩
abbrev S8192x2048 : Shape := ⟨2, ![8192, 2048]⟩
abbrev S_ : Shape := ⟨0, ![]⟩
abbrev S5504x2048x1 : Shape := ⟨3, ![5504, 2048, 1]⟩
abbrev S2048x5504x1 : Shape := ⟨3, ![2048, 5504, 1]⟩
abbrev S5632x2048 : Shape := ⟨2, ![5632, 2048]⟩
abbrev S2048x5632 : Shape := ⟨2, ![2048, 5632]⟩
abbrev S512x2048 : Shape := ⟨2, ![512, 2048]⟩
abbrev S256x2048 : Shape := ⟨2, ![256, 2048]⟩
abbrev S2048x256 : Shape := ⟨2, ![2048, 256]⟩
abbrev S512x256 : Shape := ⟨2, ![512, 256]⟩

abbrev nBuf : Space → Nat
  | .hbm => 48
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S16, .f32⟩
  | .hbm, ⟨2, _⟩ => ⟨S5504x2048, .i32⟩
  | .hbm, ⟨3, _⟩ => ⟨S5504x2048, .i32⟩
  | .hbm, ⟨4, _⟩ => ⟨S2048x5504, .i32⟩
  | .hbm, ⟨5, _⟩ => ⟨S8192x2048, .f32⟩
  | .hbm, ⟨6, _⟩ => ⟨S8192x2048, .bf16⟩
  | .hbm, ⟨7, _⟩ => ⟨S_, .i32⟩
  | .hbm, ⟨8, _⟩ => ⟨S5504x2048, .i32⟩
  | .hbm, ⟨9, _⟩ => ⟨S5504x2048, .i1⟩
  | .hbm, ⟨10, _⟩ => ⟨S_, .i32⟩
  | .hbm, ⟨11, _⟩ => ⟨S5504x2048, .i32⟩
  | .hbm, ⟨12, _⟩ => ⟨S5504x2048, .i32⟩
  | .hbm, ⟨13, _⟩ => ⟨S5504x2048, .i32⟩
  | .hbm, ⟨14, _⟩ => ⟨S5504x2048x1, .i32⟩
  | .hbm, ⟨15, _⟩ => ⟨S5504x2048, .f32⟩
  | .hbm, ⟨16, _⟩ => ⟨S5504x2048, .bf16⟩
  | .hbm, ⟨17, _⟩ => ⟨S_, .i32⟩
  | .hbm, ⟨18, _⟩ => ⟨S5504x2048, .i32⟩
  | .hbm, ⟨19, _⟩ => ⟨S5504x2048, .i1⟩
  | .hbm, ⟨20, _⟩ => ⟨S_, .i32⟩
  | .hbm, ⟨21, _⟩ => ⟨S5504x2048, .i32⟩
  | .hbm, ⟨22, _⟩ => ⟨S5504x2048, .i32⟩
  | .hbm, ⟨23, _⟩ => ⟨S5504x2048, .i32⟩
  | .hbm, ⟨24, _⟩ => ⟨S5504x2048x1, .i32⟩
  | .hbm, ⟨25, _⟩ => ⟨S5504x2048, .f32⟩
  | .hbm, ⟨26, _⟩ => ⟨S5504x2048, .bf16⟩
  | .hbm, ⟨27, _⟩ => ⟨S_, .i32⟩
  | .hbm, ⟨28, _⟩ => ⟨S2048x5504, .i32⟩
  | .hbm, ⟨29, _⟩ => ⟨S2048x5504, .i1⟩
  | .hbm, ⟨30, _⟩ => ⟨S_, .i32⟩
  | .hbm, ⟨31, _⟩ => ⟨S2048x5504, .i32⟩
  | .hbm, ⟨32, _⟩ => ⟨S2048x5504, .i32⟩
  | .hbm, ⟨33, _⟩ => ⟨S2048x5504, .i32⟩
  | .hbm, ⟨34, _⟩ => ⟨S2048x5504x1, .i32⟩
  | .hbm, ⟨35, _⟩ => ⟨S2048x5504, .f32⟩
  | .hbm, ⟨36, _⟩ => ⟨S2048x5504, .bf16⟩
  | .hbm, ⟨37, _⟩ => ⟨S_, .i32⟩
  | .hbm, ⟨38, _⟩ => ⟨S_, .bf16⟩
  | .hbm, ⟨39, _⟩ => ⟨S5632x2048, .bf16⟩
  | .hbm, ⟨40, _⟩ => ⟨S_, .i32⟩
  | .hbm, ⟨41, _⟩ => ⟨S_, .bf16⟩
  | .hbm, ⟨42, _⟩ => ⟨S5632x2048, .bf16⟩
  | .hbm, ⟨43, _⟩ => ⟨S_, .i32⟩
  | .hbm, ⟨44, _⟩ => ⟨S_, .bf16⟩
  | .hbm, ⟨45, _⟩ => ⟨S2048x5632, .bf16⟩
  | .hbm, ⟨46, _⟩ => ⟨S8192x2048, .f32⟩
  | .hbm, ⟨47, _⟩ => ⟨S2x4096x2048, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S2048x256, .bf16⟩
  | .local _ .vmem, ⟨7, _⟩ => ⟨S2048x256, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_call0_v0 : Ref sig .tc := ⟨.hbm, 38, rfl⟩
abbrev main_v26 : Ref sig .tc := ⟨.hbm, 39, rfl⟩
abbrev main_c_6 : Ref sig .tc := ⟨.hbm, 40, rfl⟩
abbrev main_call1_v0 : Ref sig .tc := ⟨.hbm, 41, rfl⟩
abbrev main_v27 : Ref sig .tc := ⟨.hbm, 42, rfl⟩
abbrev main_c_7 : Ref sig .tc := ⟨.hbm, 43, rfl⟩
abbrev main_call2_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 22], ![false, false]⟩

def k0_cond2 (i : grid0.Coords) : BitVec 1 :=
  let arg1 : BitVec 32 := BitVec.ofNat 32 (i 1).val
  let c21_i32 : BitVec 32 := 21#32
  let v23 : BitVec 1 := Scalar.cmpi .eq arg1 c21_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x4096x2048_S8192x2048 : S2x4096x2048.ShapeCasts S8192x2048
  bitsLt_bf16_f32 : FTy.bits .bf16 < FTy.bits .f32
  bcast_S_S5504x2048 : S_.BroadcastsInDim S5504x2048 (![] : Fin 0 → Fin S5504x2048.rank)
  bcast_S5504x2048_S5504x2048x1_0_1 : S5504x2048.BroadcastsInDim S5504x2048x1 (![0, 1] : Fin 2 → Fin S5504x2048x1.rank)
  bcast_S_S2048x5504 : S_.BroadcastsInDim S2048x5504 (![] : Fin 0 → Fin S2048x5504.rank)
  bcast_S2048x5504_S2048x5504x1_0_1 : S2048x5504.BroadcastsInDim S2048x5504x1 (![0, 1] : Fin 2 → Fin S2048x5504x1.rank)
  pads_S5504x2048_S5632x2048_01280_000 : S5504x2048.Pads (![0, 0] : Fin 2 → Nat) ![128, 0] ![0, 0] S5632x2048
  h_S_ : 0 < S_.numel
  pads_S2048x5504_S2048x5632_000_01280 : S2048x5504.Pads (![0, 0] : Fin 2 → Nat) ![0, 128] ![0, 0] S2048x5632
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S8192x2048_S2x4096x2048 : S8192x2048.ShapeCasts S2x4096x2048
  gather_S16_S5504x2048x1_S5504x2048_n_0_n_n_0_2_1_wf : GatherDims.WF S16 S5504x2048x1 S5504x2048 [] [0] [] [0] [] 2 ![1]
  gather_S16_S2048x5504x1_S2048x5504_n_0_n_n_0_2_1_wf : GatherDims.WF S16 S2048x5504x1 S2048x5504 [] [0] [] [0] [] 2 ![1]
  dot_S512x2048_S256x2048_S512x256_1_1_0_0_n_n_wf : DotDims.WF S512x2048 S256x2048 S512x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S5632x2048.size a
  hwx0_1 : ∀ i : grid0.Coords, EltTy.bits .bf16 = 32 ∨ (Rect.block (s := S5632x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S5632x2048.size a
  hwx0_2 : ∀ i : grid0.Coords, EltTy.bits .bf16 = 32 ∨ (Rect.block (s := S5632x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x5632.size a
  hwx0_3 : ∀ i : grid0.Coords, EltTy.bits .bf16 = 32 ∨ (Rect.block (s := S2048x5632) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def gather_S16_S5504x2048x1_S5504x2048_n_0_n_n_0_2_1 : GatherDims S16 S5504x2048x1 S5504x2048 where
  offsetDims := []
  collapsedSliceDims := [0]
  operandBatchingDims := []
  startIndicesBatchingDims := []
  startIndexMap := [0]
  indexVectorDim := 2
  sliceSizes := ![1]
  wf := gather_S16_S5504x2048x1_S5504x2048_n_0_n_n_0_2_1_wf
def gather_S16_S2048x5504x1_S2048x5504_n_0_n_n_0_2_1 : GatherDims S16 S2048x5504x1 S2048x5504 where
  offsetDims := []
  collapsedSliceDims := [0]
  operandBatchingDims := []
  startIndicesBatchingDims := []
  startIndexMap := [0]
  indexVectorDim := 2
  sliceSizes := ![1]
  wf := gather_S16_S2048x5504x1_S2048x5504_n_0_n_n_0_2_1_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x2048 : Shape := ⟨3, ![2, 4096, 2048]⟩
abbrev S16 : Shape := ⟨1, ![16]⟩
abbrev S5504x2048 : Shape := ⟨2, ![5504, 2048]⟩
abbrev S2048x5504 : Shape := ⟨2, ![2048, 5504]⟩
abbrev S_ : Shape := ⟨0, ![]⟩
abbrev S5504x2048x1 : Shape := ⟨3, ![5504, 2048, 1]⟩
abbrev S2x4096x5504 : Shape := ⟨3, ![2, 4096, 5504]⟩
abbrev S2048x5504x1 : Shape := ⟨3, ![2048, 5504, 1]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S16, .f32⟩
  | .hbm, ⟨2, _⟩ => ⟨S5504x2048, .i32⟩
  | .hbm, ⟨3, _⟩ => ⟨S5504x2048, .i32⟩
  | .hbm, ⟨4, _⟩ => ⟨S2048x5504, .i32⟩
  | .hbm, ⟨5, _⟩ => ⟨S_, .i32⟩
  | .hbm, ⟨6, _⟩ => ⟨S5504x2048, .i32⟩
  | .hbm, ⟨7, _⟩ => ⟨S5504x2048, .i1⟩
  | .hbm, ⟨8, _⟩ => ⟨S_, .i32⟩
  | .hbm, ⟨9, _⟩ => ⟨S5504x2048, .i32⟩
  | .hbm, ⟨10, _⟩ => ⟨S5504x2048, .i32⟩
  | .hbm, ⟨11, _⟩ => ⟨S5504x2048, .i32⟩
  | .hbm, ⟨12, _⟩ => ⟨S5504x2048x1, .i32⟩
  | .hbm, ⟨13, _⟩ => ⟨S5504x2048, .f32⟩
  | .hbm, ⟨14, _⟩ => ⟨S2x4096x5504, .f32⟩
  | .hbm, ⟨15, _⟩ => ⟨S_, .i32⟩
  | .hbm, ⟨16, _⟩ => ⟨S5504x2048, .i32⟩
  | .hbm, ⟨17, _⟩ => ⟨S5504x2048, .i1⟩
  | .hbm, ⟨18, _⟩ => ⟨S_, .i32⟩
  | .hbm, ⟨19, _⟩ => ⟨S5504x2048, .i32⟩
  | .hbm, ⟨20, _⟩ => ⟨S5504x2048, .i32⟩
  | .hbm, ⟨21, _⟩ => ⟨S5504x2048, .i32⟩
  | .hbm, ⟨22, _⟩ => ⟨S5504x2048x1, .i32⟩
  | .hbm, ⟨23, _⟩ => ⟨S5504x2048, .f32⟩
  | .hbm, ⟨24, _⟩ => ⟨S2x4096x5504, .f32⟩
  | .hbm, ⟨25, _⟩ => ⟨S2x4096x5504, .f32⟩
  | .hbm, ⟨26, _⟩ => ⟨S2x4096x5504, .f32⟩
  | .hbm, ⟨27, _⟩ => ⟨S_, .f32⟩
  | .hbm, ⟨28, _⟩ => ⟨S2x4096x5504, .f32⟩
  | .hbm, ⟨29, _⟩ => ⟨S2x4096x5504, .f32⟩
  | .hbm, ⟨30, _⟩ => ⟨S_, .f32⟩
  | .hbm, ⟨31, _⟩ => ⟨S2x4096x5504, .f32⟩
  | .hbm, ⟨32, _⟩ => ⟨S2x4096x5504, .f32⟩
  | .hbm, ⟨33, _⟩ => ⟨S2x4096x5504, .f32⟩
  | .hbm, ⟨34, _⟩ => ⟨S2x4096x5504, .f32⟩
  | .hbm, ⟨35, _⟩ => ⟨S_, .i32⟩
  | .hbm, ⟨36, _⟩ => ⟨S2048x5504, .i32⟩
  | .hbm, ⟨37, _⟩ => ⟨S2048x5504, .i1⟩
  | .hbm, ⟨38, _⟩ => ⟨S_, .i32⟩
  | .hbm, ⟨39, _⟩ => ⟨S2048x5504, .i32⟩
  | .hbm, ⟨40, _⟩ => ⟨S2048x5504, .i32⟩
  | .hbm, ⟨41, _⟩ => ⟨S2048x5504, .i32⟩
  | .hbm, ⟨42, _⟩ => ⟨S2048x5504x1, .i32⟩
  | .hbm, ⟨43, _⟩ => ⟨S2048x5504, .f32⟩
  | .hbm, ⟨44, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  bcast_S_S5504x2048 : S_.BroadcastsInDim S5504x2048 (![] : Fin 0 → Fin S5504x2048.rank)
  bcast_S5504x2048_S5504x2048x1_0_1 : S5504x2048.BroadcastsInDim S5504x2048x1 (![0, 1] : Fin 2 → Fin S5504x2048x1.rank)
  bcast_S_S2x4096x5504 : S_.BroadcastsInDim S2x4096x5504 (![] : Fin 0 → Fin S2x4096x5504.rank)
  bcast_S_S2048x5504 : S_.BroadcastsInDim S2048x5504 (![] : Fin 0 → Fin S2048x5504.rank)
  bcast_S2048x5504_S2048x5504x1_0_1 : S2048x5504.BroadcastsInDim S2048x5504x1 (![0, 1] : Fin 2 → Fin S2048x5504x1.rank)
  gather_S16_S5504x2048x1_S5504x2048_n_0_n_n_0_2_1_wf : GatherDims.WF S16 S5504x2048x1 S5504x2048 [] [0] [] [0] [] 2 ![1]
  dot_S2x4096x2048_S5504x2048_S2x4096x5504_2_1_01_0_n_n_wf : DotDims.WF S2x4096x2048 S5504x2048 S2x4096x5504 [2] [1] [0, 1] [0] [] []
  gather_S16_S2048x5504x1_S2048x5504_n_0_n_n_0_2_1_wf : GatherDims.WF S16 S2048x5504x1 S2048x5504 [] [0] [] [0] [] 2 ![1]
  dot_S2x4096x5504_S2048x5504_S2x4096x2048_2_1_01_0_n_n_wf : DotDims.WF S2x4096x5504 S2048x5504 S2x4096x2048 [2] [1] [0, 1] [0] [] []

variable [Facts₀]

def gather_S16_S5504x2048x1_S5504x2048_n_0_n_n_0_2_1 : GatherDims S16 S5504x2048x1 S5504x2048 where
  offsetDims := []
  collapsedSliceDims := [0]
  operandBatchingDims := []
  startIndicesBatchingDims := []
  startIndexMap := [0]
  indexVectorDim := 2
  sliceSizes := ![1]
  wf := gather_S16_S5504x2048x1_S5504x2048_n_0_n_n_0_2_1_wf
def dot_S2x4096x2048_S5504x2048_S2x4096x5504_2_1_01_0_n_n : DotDims S2x4096x2048 S5504x2048 S2x4096x5504 where
  lhsContracting := [2]
  rhsContracting := [1]
  lhsNonContracting := [0, 1]
  rhsNonContracting := [0]
  lhsBatch := []
  rhsBatch := []
  wf := dot_S2x4096x2048_S5504x2048_S2x4096x5504_2_1_01_0_n_n_wf
def gather_S16_S2048x5504x1_S2048x5504_n_0_n_n_0_2_1 : GatherDims S16 S2048x5504x1 S2048x5504 where
  offsetDims := []
  collapsedSliceDims := [0]
  operandBatchingDims := []
  startIndicesBatchingDims := []
  startIndexMap := [0]
  indexVectorDim := 2
  sliceSizes := ![1]
  wf := gather_S16_S2048x5504x1_S2048x5504_n_0_n_n_0_2_1_wf
def dot_S2x4096x5504_S2048x5504_S2x4096x2048_2_1_01_0_n_n : DotDims S2x4096x5504 S2048x5504 S2x4096x2048 where
  lhsContracting := [2]
  rhsContracting := [1]
  lhsNonContracting := [0, 1]
  rhsNonContracting := [0]
  lhsBatch := []
  rhsBatch := []
  wf := dot_S2x4096x5504_S2048x5504_S2x4096x2048_2_1_01_0_n_n_wf

class Facts : Prop extends Facts₀ where

variable [Facts]
-- ==== Proof.Steps.lean ====
/-
  What one grid point leaves behind, as values.

  At every point the body adds the point's partial product to the accumulator it keeps in scratch memory; the body's
  arithmetic is one pure term of its loads, `update x wg wu wd acc` (the generated payload `k0_pay2`), and the reset
  stores the zero block `k0_pay1`. Read back as values, the three cases of the body's conditionals leave:
    * first step of a row block (reset, then accumulate):   scratch = `update … 0`;
    * a middle step:                                         scratch = `update … acc`;
    * last step (accumulate, then write out):                scratch = output block = `update … acc`,
  where `acc` is what the step before left in scratch. Stated for any float instance.
-/
import proofs.«423223_j50663434223830_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

theorem hz : (![0, 0] : Fin 2 → Nat) = fun _ => 0 := funext fun a => by fin_cases a <;> rfl

/-- A middle step: the scratch ends at the update of what it held. -/
theorem scratch_mid (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i) (x0 : Vec F S512x2048 .bf16) (x1 : Vec F S256x2048 .bf16) (x2 : Vec F S256x2048 .bf16) (x3 : Vec F S2048x256 .bf16) (xs0 : Vec F S512x2048 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S512x2048) hz, View.ld_unit_zero (S := S256x2048) hz, View.ld_unit_zero (S := S2048x256) hz]

/-- The first step of a row block: the reset's zero block is what the update reads back. -/
theorem scratch_first (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i) (x0 : Vec F S512x2048 .bf16) (x1 : Vec F S256x2048 .bf16) (x2 : Vec F S256x2048 .bf16) (x3 : Vec F S2048x256 .bf16) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg7.read_unread, View.ld_unit_zero (S := S512x2048) hz, View.ld_unit_zero (S := S256x2048) hz, View.ld_unit_zero (S := S2048x256) hz]

/-- The last step: the scratch ends at the update of what it held, -/
theorem scratch_last (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (x0 : Vec F S512x2048 .bf16) (x1 : Vec F S256x2048 .bf16) (x2 : Vec F S256x2048 .bf16) (x3 : Vec F S2048x256 .bf16) (xs0 : Vec F S512x2048 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S512x2048) hz, View.ld_unit_zero (S := S256x2048) hz, View.ld_unit_zero (S := S2048x256) hz]

/-- and the output block is that same value, loaded from the scratch after the store. -/
theorem out_last (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (x0 : Vec F S512x2048 .bf16) (x1 : Vec F S256x2048 .bf16) (x2 : Vec F S256x2048 .bf16) (x3 : Vec F S2048x256 .bf16) (xs0 : Vec F S512x2048 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readCov_unit_zero (S := S512x2048) _ hz, View.readAt_eq_ld, harg2.read_unread, harg3.read_unread, harg4.read_unread, harg5.read_unread, harg7.read_unread, View.ld_unit_zero (S := S512x2048) hz, View.ld_unit_zero (S := S256x2048) hz, View.ld_unit_zero (S := S2048x256) hz]

end Cert.KernelIdeal.Steps

end
-- ==== Proof.LibMatmulRows.lean ====
/-
  A matrix product with the right operand transposed, into a zero accumulator, read at one entry over the extended reals.

  For dimension numbers that contract the second axis of BOTH operands, with no batch axis — the left operand an
  [A × K] matrix read at (row, k), the right a [B × K] matrix read at (column, k) — the entry (p, q) of the product is
  `∑ₖ l[p, k] · r[q, k]`: the left operand times the transpose of the right. Where the dimension numbers read their
  operands is taken as four hypotheses, so the lemma serves any printed record of this kind.
-/
import Idealize.ShloMosaic.PureOps.Ideal.Laws
import Idealize.ShloMosaic.Lib.ValueIdx

noncomputable section

namespace Idealize.ShloMosaic.MatmulRows

open Idealize.ShloMosaic Idealize.ShloMosaic.ValueIdx

/-- Entry (p, q) of `l · rᵀ` accumulated into zero is the sum over the contracted axis of `l[p, k] · r[q, k]`, for
    dimension numbers `D` whose one contracted axis has extent `K` (`hr`, `hs`) and which read the left operand at
    (row, k) (`hl0`, `hl1`) and the right at (column, k) (`hr0`, `hr1`). -/
theorem matmul_zero_rows {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRows

end
-- ==== Proof.GatedLayer.lean ====
/-
  The gated feed-forward layer over the extended reals, as one function of its arrays.

  For a row `x` of `K` inputs and weight matrices `Wg`, `Wu` (one row of `K` weights per hidden unit) and `Wd` (one row
  of hidden-unit weights per output), hidden unit `k` is
      `h k = (g · σ(g)) · u`   with   `g = ∑ₕ x h · Wg[k, h]`,   `u = ∑ₕ x h · Wu[k, h]`,   `σ(g) = 1 / (1 + e^(−g))`,
  and output `c` of the row is `∑ₖ h k · Wd[c, k]`. `layer` applies this to every row (b, s) of a rank-3 input.
  The summand `h k · Wd[c, k]` is named (`term`), because both programs compute the output as a sum of these terms and
  differ only in how the sum over `k` is grouped.
-/
import Idealize.ShloMosaic.PureOps.Ideal
import Idealize.ShloMosaic.Lib.ValueIdx

noncomputable section

namespace GatedLayer

open Idealize.ShloMosaic Idealize.ShloMosaic.ValueIdx

/-- The projection of a row on weight row `k`: `∑ₕ x h · W[k, h]`. -/
def proj {K N : Nat} (xr : Fin K → EReal) (W : (⟨2, ![N, K]⟩ : Shape).Idx → EReal) (k : Fin N) : EReal :=
  ∑ h : Fin K, xr h * W (ix2 k h)

/-- Hidden unit `k`: the gate projection times its logistic, times the up projection. -/
def hidden {K N : Nat} (xr : Fin K → EReal) (Wg Wu : (⟨2, ![N, K]⟩ : Shape).Idx → EReal) (k : Fin N) : EReal :=
  (proj xr Wg k * Ideal.logistic (proj xr Wg k)) * proj xr Wu k

/-- What hidden unit `k` contributes to output `c`. -/
def term {K N C : Nat} (xr : Fin K → EReal) (Wg Wu : (⟨2, ![N, K]⟩ : Shape).Idx → EReal)
    (Wd : (⟨2, ![C, N]⟩ : Shape).Idx → EReal) (c : Fin C) (k : Fin N) : EReal :=
  hidden xr Wg Wu k * Wd (ix2 c k)

/-- Output `c` of one row: the sum of the hidden units' contributions. -/
def outRow {K N C : Nat} (xr : Fin K → EReal) (Wg Wu : (⟨2, ![N, K]⟩ : Shape).Idx → EReal)
    (Wd : (⟨2, ![C, N]⟩ : Shape).Idx → EReal) (c : Fin C) : EReal :=
  ∑ k : Fin N, term xr Wg Wu Wd c k

/-- The layer on a rank-3 input: entry (b, s, c) is output `c` of row (b, s). -/
def layer {B S K N C : Nat} (X : (⟨3, ![B, S, K]⟩ : Shape).Idx → EReal) (Wg Wu : (⟨2, ![N, K]⟩ : Shape).Idx → EReal)
    (Wd : (⟨2, ![C, N]⟩ : Shape).Idx → EReal) : (⟨3, ![B, S, C]⟩ : Shape).Idx → EReal :=
  fun i => outRow (fun h => X (ix3 (n0 := B) (n1 := S) (i 0) (i 1) h)) Wg Wu Wd (i 2)

theorem layer_apply {B S K N C : Nat} (X : (⟨3, ![B, S, K]⟩ : Shape).Idx → EReal) (Wg Wu : (⟨2, ![N, K]⟩ : Shape).Idx → EReal)
    (Wd : (⟨2, ![C, N]⟩ : Shape).Idx → EReal) (b : Fin B) (s : Fin S) (c : Fin C) :
    layer X Wg Wu Wd (ix3 b s c) = outRow (fun h => X (ix3 b s h)) Wg Wu Wd c := rfl

/-- A contribution depends only on the row, on weight rows `k` of `Wg` and `Wu`, and on the entry (c, k) of `Wd`:
    two settings that agree on those give the same contribution, whatever the arrays' extents. -/
theorem term_congr {K N N' C C' : Nat} (xr xr' : Fin K → EReal)
    (Wg Wu : (⟨2, ![N, K]⟩ : Shape).Idx → EReal) (Wg' Wu' : (⟨2, ![N', K]⟩ : Shape).Idx → EReal)
    (Wd : (⟨2, ![C, N]⟩ : Shape).Idx → EReal) (Wd' : (⟨2, ![C', N']⟩ : Shape).Idx → EReal)
    (c : Fin C) (c' : Fin C') (k : Fin N) (k' : Fin N')
    (hx : ∀ h, xr h = xr' h) (hg : ∀ h, Wg (ix2 k h) = Wg' (ix2 k' h)) (hu : ∀ h, Wu (ix2 k h) = Wu' (ix2 k' h))
    (hd : Wd (ix2 c k) = Wd' (ix2 c' k')) :
    term xr Wg Wu Wd c k = term xr' Wg' Wu' Wd' c' k' := by
  unfold term hidden proj
  rw [hd]
  simp only [hx, hg, hu]

/-- A hidden unit whose down weight is zero contributes nothing. -/
theorem term_eq_zero {K N C : Nat} (xr : Fin K → EReal) (Wg Wu : (⟨2, ![N, K]⟩ : Shape).Idx → EReal)
    (Wd : (⟨2, ![C, N]⟩ : Shape).Idx → EReal) (c : Fin C) (k : Fin N) (hd : Wd (ix2 c k) = 0) :
    term xr Wg Wu Wd c k = 0 := by
  unfold term
  rw [hd, mul_zero]

end GatedLayer

end
-- ==== Proof.Update.lean ====
/-
  The body's update, entry by entry, over the extended reals.

  With `x` the point's [512 × 2048] block of input rows, `wg`, `wu` its [256 × 2048] blocks of gate and up weight
  rows, `wd` its [2048 × 256] block of down weights and `acc` the accumulator, the update is
      `acc + ((g · σ(g)) · u) · wdᵀ`      with  `g = x · wgᵀ`,  `u = x · wuᵀ`,
  every product a matrix product into a zero accumulator and every change of float format the identity. So entry
  (r, c) of the result is `acc[r, c]` plus, for each of the block's 256 hidden units `j`, that unit's contribution to
  output `c` of row `r` (`GatedLayer.term`, with the blocks as the weight arrays).
-/
import proofs.«423223_j50663434223830_3_alg».proof.Proof.Gen.KernelIdeal.Skeleton
import proofs.«423223_j50663434223830_3_alg».proof.Proof.LibMatmulRows
import proofs.«423223_j50663434223830_3_alg».proof.Proof.GatedLayer
import Idealize.ShloMosaic.Lib.Pipeline.Value

noncomputable section

open Idealize.ShloMosaic Idealize.ShloMosaic.ValueIdx

namespace Cert.KernelIdeal.Update

open Cert.KernelIdeal Cert.KernelIdeal.Gen

/-! ### Where the two products read their operands: left at (row, k), right at (column, k) -/

theorem up_lhs_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem up_lhs_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem up_rhs_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem up_rhs_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

theorem down_lhs_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem down_lhs_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
theorem down_rhs_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem down_rhs_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- A projection of the row block on a block of weight rows: entry (p, j) of `x · wᵀ` is row `p` projected on weight row `j`. -/
theorem proj_block (x : FVec Ideal S512x2048 .bf16) (w : FVec Ideal S256x2048 .bf16) (p : Fin 512) (j : Fin 256) :
    FloatOps.matmul dot_S512x2048_S256x2048_S512x256_1_1_0_0_n_n none x w (constant (F := Ideal) S512x256 .f32 0x00000000#32) (ix2 p j)
      = GatedLayer.proj (fun h => x (ix2 p h)) w j :=
  MatmulRows.matmul_zero_rows (φ₁ := .bf16) (φ₂ := .bf16) dot_S512x2048_S256x2048_S512x256_1_1_0_0_n_n rfl rfl up_lhs_0 up_lhs_1 up_rhs_0 up_rhs_1 none x w p j

/-- The update at entry (r, c): the accumulator there plus the contributions of the block's 256 hidden units. -/
theorem update_apply (x : Vec Ideal S512x2048 .bf16) (wg wu : Vec Ideal S256x2048 .bf16) (wd : Vec Ideal S2048x256 .bf16)
    (acc : Vec Ideal S512x2048 .f32) (r : Fin 512) (c : Fin 2048) :
    k0_pay2 (F := Ideal) x wg wu wd acc (ix2 r c)
      = acc (ix2 r c) + ∑ j : Fin 256, GatedLayer.term (fun h => x (ix2 r h)) wg wu wd c j := by
  unfold k0_pay2
  simp only [shapeCast_self]
  refine congrArg (fun z => acc (ix2 r c) + z) ?_
  refine (MatmulRows.matmul_zero_rows (φ₁ := .bf16) (φ₂ := .bf16) dot_S512x256_S2048x256_S512x2048_1_1_0_0_n_n rfl rfl down_lhs_0 down_lhs_1 down_rhs_0 down_rhs_1 none _ wd r c).trans ?_
  refine Finset.sum_congr rfl fun j _ => ?_
  unfold GatedLayer.term GatedLayer.hidden
  refine congrArg (fun z => z * wd (ix2 c j)) ?_
  show (FloatOps.matmul dot_S512x2048_S256x2048_S512x256_1_1_0_0_n_n none x wg (constant (F := Ideal) S512x256 .f32 0x00000000#32) (ix2 r j)
      * Ideal.logistic (FloatOps.matmul dot_S512x2048_S256x2048_S512x256_1_1_0_0_n_n none x wg (constant (F := Ideal) S512x256 .f32 0x00000000#32) (ix2 r j)))
      * FloatOps.matmul dot_S512x2048_S256x2048_S512x256_1_1_0_0_n_n none x wu (constant (F := Ideal) S512x256 .f32 0x00000000#32) (ix2 r j) = _
  rw [proj_block x wg r j, proj_block x wu r j]

end Cert.KernelIdeal.Update

end
-- ==== Proof.LibBlockSum.lean ====
/-
  Sums over an initial segment of the naturals, cut into equal blocks and padded with zeros.

  A function on `Fin N` is extended by zero to all naturals (`natExt`), so that partial sums over the first
  `b · i` indices can be written over `Finset.range` and grown one block at a time:
    * `sum_range_block` — the first `b · (i + 1)` terms are the first `b · i` terms plus the next block of `b`;
    * `sum_range_pad` — if `Fp : Fin M → _` agrees with `F : Fin N → _` below `N ≤ M` and vanishes from `N` on,
      the sum of all `M` terms of `Fp` is the sum of the `N` terms of `F`.
-/
import Mathlib.Algebra.BigOperators.Fin

namespace BlockSum

open Finset

/-- A function on `Fin N` read at any natural: zero from `N` on. -/
def natExt {α : Type*} [Zero α] {N : ℕ} (F : Fin N → α) (k : ℕ) : α :=
  if h : k < N then F ⟨k, h⟩ else 0

theorem natExt_of_lt {α : Type*} [Zero α] {N : ℕ} (F : Fin N → α) (k : ℕ) (h : k < N) : natExt F k = F ⟨k, h⟩ :=
  dif_pos h

/-- The first `b · (i + 1)` terms: the first `b · i`, then block `i`. -/
theorem sum_range_block {α : Type*} [AddCommMonoid α] (f : ℕ → α) (b i : ℕ) :
    ∑ k ∈ range (b * (i + 1)), f k = ∑ k ∈ range (b * i), f k + ∑ j : Fin b, f (b * i + j.val) := by
  rw [Nat.mul_succ, sum_range_add, Finset.sum_range (fun x => f (b * i + x))]

/-- Zero padding drops out of a sum: `Fp` is `F` below `N` and zero from `N` up to `M`. -/
theorem sum_range_pad {α : Type*} [AddCommMonoid α] {N M : ℕ} (hNM : N ≤ M) (Fp : Fin M → α) (F : Fin N → α)
    (hin : ∀ (k : ℕ) (hk : k < N), Fp ⟨k, lt_of_lt_of_le hk hNM⟩ = F ⟨k, hk⟩)
    (hout : ∀ (k : ℕ) (hk : k < M), N ≤ k → Fp ⟨k, hk⟩ = 0) :
    ∑ k ∈ range M, natExt Fp k = ∑ k : Fin N, F k := by
  obtain ⟨P, rfl⟩ := Nat.exists_eq_add_of_le hNM
  rw [sum_range_add]
  have h2 : ∑ x ∈ range P, natExt Fp (N + x) = 0 := Finset.sum_eq_zero fun x hx => by
    have hx' : N + x < N + P := by have := Finset.mem_range.mp hx; omega
    rw [natExt_of_lt Fp _ hx']
    exact hout _ hx' (Nat.le_add_right _ _)
  rw [h2, add_zero, Finset.sum_range]
  refine Finset.sum_congr rfl fun k _ => ?_
  rw [natExt_of_lt Fp _ (lt_of_lt_of_le k.isLt hNM)]
  exact hin k.val k.isLt

end BlockSum
-- ==== Proof.Accumulate.lean ====
/-
  What the accumulator holds after each grid point.

  The grid has 16 row blocks × 22 steps, walked row block by row block; point `n` is step `n mod 22` of row block
  `n / 22`. At that point the body sees rows `512·(n/22) + r` of the row array, weight rows `256·(n mod 22) + j` of the
  padded gate and up arrays, and columns `256·(n mod 22) + j` of the padded down array (`*_block`). Each step adds its
  256 hidden units' contributions to what the step before left, the first step of a row block starting from zero; so
  after point `n` entry (r, c) of the accumulator is the sum of the contributions of the first `256·(n mod 22 + 1)`
  hidden units to output `c` of row `512·(n/22) + r` (`scratch_eq`, by induction on the point).
-/
import proofs.«423223_j50663434223830_3_alg».proof.Proof.Steps
import proofs.«423223_j50663434223830_3_alg».proof.Proof.Update
import proofs.«423223_j50663434223830_3_alg».proof.Proof.LibBlockSum

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen

variable (m : (ℓ : Loc nD τ sig) → Buf (Elt Ideal) ℓ)

/-! ### The arrays and the blocks, at their literal types -/

abbrev rowsArr (c : Dev nD) : Vec Ideal S8192x2048 .bf16 := V m c main_v1
abbrev gateArr (c : Dev nD) : Vec Ideal S5632x2048 .bf16 := V m c main_v26
abbrev upArr (c : Dev nD) : Vec Ideal S5632x2048 .bf16 := V m c main_v27
abbrev downArr (c : Dev nD) : Vec Ideal S2048x5632 .bf16 := V m c main_v28

abbrev rowsBlk (c : Dev nD) (t : Fin cfg0.N) : Vec Ideal S512x2048 .bf16 := iblk m c 0 t
abbrev gateBlk (c : Dev nD) (t : Fin cfg0.N) : Vec Ideal S256x2048 .bf16 := iblk m c 1 t
abbrev upBlk (c : Dev nD) (t : Fin cfg0.N) : Vec Ideal S256x2048 .bf16 := iblk m c 2 t
abbrev downBlk (c : Dev nD) (t : Fin cfg0.N) : Vec Ideal S2048x256 .bf16 := iblk m c 3 t

/-- Which block each window shows at point `t`: the row block `t / 22` of the rows (and of the output), the step
    `t mod 22` of the weights — decided over the grid. -/
theorem block_index : ∀ t : Fin cfg0.N,
    win0_0.index t (0 : Fin 2) = t.val / 22 ∧ win0_0.index t (1 : Fin 2) = 0
    ∧ win0_1.index t (0 : Fin 2) = t.val % 22 ∧ win0_1.index t (1 : Fin 2) = 0
    ∧ win0_2.index t (0 : Fin 2) = t.val % 22 ∧ win0_2.index t (1 : Fin 2) = 0
    ∧ win0_3.index t (0 : Fin 2) = 0 ∧ win0_3.index t (1 : Fin 2) = t.val % 22
    ∧ win0_4.index t (0 : Fin 2) = t.val / 22 ∧ win0_4.index t (1 : Fin 2) = 0 :=
  (by decide +kernel : ∀ t : Fin grid0.N, _)

theorem rows_block (c : Dev nD) (t : Fin cfg0.N) (r : Fin 512) (h : Fin 2048) (R : Fin 8192)
    (hR : R.val = 512 * (t.val / 22) + r.val) : rowsBlk m c t (ix2 r h) = rowsArr m c (ix2 R h) := by
  show iblk m c 0 t (ix2 r h) = V m c main_v1 (ix2 R h)
  unfold iblk
  rw [View.read_apply]
  show V m c main_v1 _ = V m c main_v1 _
  refine congrArg (V m c main_v1) (funext fun a => Fin.ext ?_)
  match a with
  | ⟨0, _⟩ => show win0_0.index t 0 * 512 + 1 * r.val = R.val; rw [(block_index t).1, hR]; omega
  | ⟨1, _⟩ => show win0_0.index t 1 * 2048 + 1 * h.val = h.val; rw [(block_index t).2.1]; omega

theorem gate_block (c : Dev nD) (t : Fin cfg0.N) (j : Fin 256) (h : Fin 2048) (k : Fin 5632)
    (hk : k.val = 256 * (t.val % 22) + j.val) : gateBlk m c t (ix2 j h) = gateArr m c (ix2 k h) := by
  show iblk m c 1 t (ix2 j h) = V m c main_v26 (ix2 k h)
  unfold iblk
  rw [View.read_apply]
  show V m c main_v26 _ = V m c main_v26 _
  refine congrArg (V m c main_v26) (funext fun a => Fin.ext ?_)
  match a with
  | ⟨0, _⟩ => show win0_1.index t 0 * 256 + 1 * j.val = k.val; rw [(block_index t).2.2.1, hk]; omega
  | ⟨1, _⟩ => show win0_1.index t 1 * 2048 + 1 * h.val = h.val; rw [(block_index t).2.2.2.1]; omega

theorem up_block (c : Dev nD) (t : Fin cfg0.N) (j : Fin 256) (h : Fin 2048) (k : Fin 5632)
    (hk : k.val = 256 * (t.val % 22) + j.val) : upBlk m c t (ix2 j h) = upArr m c (ix2 k h) := by
  show iblk m c 2 t (ix2 j h) = V m c main_v27 (ix2 k h)
  unfold iblk
  rw [View.read_apply]
  show V m c main_v27 _ = V m c main_v27 _
  refine congrArg (V m c main_v27) (funext fun a => Fin.ext ?_)
  match a with
  | ⟨0, _⟩ => show win0_2.index t 0 * 256 + 1 * j.val = k.val; rw [(block_index t).2.2.2.2.1, hk]; omega
  | ⟨1, _⟩ => show win0_2.index t 1 * 2048 + 1 * h.val = h.val; rw [(block_index t).2.2.2.2.2.1]; omega

theorem down_block (c : Dev nD) (t : Fin cfg0.N) (o : Fin 2048) (j : Fin 256) (k : Fin 5632)
    (hk : k.val = 256 * (t.val % 22) + j.val) : downBlk m c t (ix2 o j) = downArr m c (ix2 o k) := by
  show iblk m c 3 t (ix2 o j) = V m c main_v28 (ix2 o k)
  unfold iblk
  rw [View.read_apply]
  show V m c main_v28 _ = V m c main_v28 _
  refine congrArg (V m c main_v28) (funext fun a => Fin.ext ?_)
  match a with
  | ⟨0, _⟩ => show win0_3.index t 0 * 2048 + 1 * o.val = o.val; rw [(block_index t).2.2.2.2.2.2.1]; omega
  | ⟨1, _⟩ => show win0_3.index t 1 * 256 + 1 * j.val = k.val; rw [(block_index t).2.2.2.2.2.2.2.1, hk]; omega

/-! ### The accumulator after point `n` -/

/-- Row `r` of the row block point `n` works on. -/
def rowOf (n : ℕ) (hn : n < 352) (r : Fin 512) : Fin 8192 := ⟨512 * (n / 22) + r.val, by have := r.isLt; omega⟩

/-- What hidden unit `k` (of the 5632 padded ones) contributes to output `o` of row `R`. -/
def contrib (c : Dev nD) (R : Fin 8192) (o : Fin 2048) (k : Fin 5632) : EReal :=
  GatedLayer.term (fun h => rowsArr m c (ix2 R h)) (gateArr m c) (upArr m c) (downArr m c) o k

/-- One step's 256 contributions, read off the point's blocks, are those of hidden units `256·(n mod 22) + j`. -/
theorem step_terms (c : Dev nD) (n : ℕ) (hn : n < cfg0.N) (hn' : n < 352) (r : Fin 512) (o : Fin 2048) :
    ∑ j : Fin 256, GatedLayer.term (fun h => rowsBlk m c ⟨n, hn⟩ (ix2 r h)) (gateBlk m c ⟨n, hn⟩) (upBlk m c ⟨n, hn⟩) (downBlk m c ⟨n, hn⟩) o j
      = ∑ j : Fin 256, BlockSum.natExt (contrib m c (rowOf n hn' r) o) (256 * (n % 22) + j.val) := by
  refine Finset.sum_congr rfl fun j _ => ?_
  have hj : 256 * (n % 22) + j.val < 5632 := by have := j.isLt; omega
  rw [BlockSum.natExt_of_lt _ _ hj]
  unfold contrib
  exact GatedLayer.term_congr _ _ _ _ _ _ _ _ o o j ⟨256 * (n % 22) + j.val, hj⟩
    (fun h => rows_block m c ⟨n, hn⟩ r h (rowOf n hn' r) rfl)
    (fun h => gate_block m c ⟨n, hn⟩ j h ⟨256 * (n % 22) + j.val, hj⟩ rfl)
    (fun h => up_block m c ⟨n, hn⟩ j h ⟨256 * (n % 22) + j.val, hj⟩ rfl)
    (down_block m c ⟨n, hn⟩ o j ⟨256 * (n % 22) + j.val, hj⟩ rfl)

/-- The zero block the reset stores is zero at every entry. -/
theorem reset_apply (i : S512x2048.Idx) : k0_pay1 (F := Ideal) i = 0 := by
  unfold k0_pay1
  simp only [shapeCast_self]
  exact Ideal.ofBits_zero_f32

/-- THE INVARIANT: after point `n`, entry (r, o) of the accumulator is the sum of the first `256·(n mod 22 + 1)`
    contributions to output `o` of row `512·(n/22) + r`. -/
theorem scratch_eq (c : Dev nD) : ∀ (n : ℕ) (hn : n < cfg0.N) (hn' : n < 352) (r : Fin 512) (o : Fin 2048),
    (outsAt0 m c n hn).2 (ix2 r o)
      = ∑ k ∈ Finset.range (256 * (n % 22 + 1)), BlockSum.natExt (contrib m c (rowOf n hn' r) o) k := by
  intro n
  induction n using Nat.strong_induction_on with
  | _ n ih =>
    intro hn hn' r o
    rw [BlockSum.sum_range_block _ 256 (n % 22), ← step_terms m c n hn hn' r o]
    by_cases h0 : n % 22 = 0
    · have h1 : ¬n % 22 = 21 := by omega
      rw [outsAt0_A m c ⟨n, hn⟩ h0 h1]
      dsimp only
      refine (congrFun (Steps.scratch_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩)) (ix2 r o)).trans ?_
      refine (Update.update_apply (rowsBlk m c ⟨n, hn⟩) (gateBlk m c ⟨n, hn⟩) (upBlk m c ⟨n, hn⟩) (downBlk m c ⟨n, hn⟩) (k0_pay1 (F := Ideal)) r o).trans ?_
      rw [reset_apply, h0, Nat.mul_zero, Finset.range_zero, Finset.sum_empty]
    · have hprev : n - 1 < cfg0.N := Nat.lt_of_le_of_lt (Nat.sub_le _ _) hn
      have hprev' : n - 1 < 352 := by omega
      have hstep : (n - 1) % 22 + 1 = n % 22 := by omega
      have hrow : rowOf (n - 1) hprev' r = rowOf n hn' r := Fin.ext (by show 512 * ((n - 1) / 22) + r.val = 512 * (n / 22) + r.val; omega)
      have hacc : (outsAt0 m c (n - 1) hprev).2 (ix2 r o)
          = ∑ k ∈ Finset.range (256 * (n % 22)), BlockSum.natExt (contrib m c (rowOf n hn' r) o) k := by
        rw [ih (n - 1) (by omega) hprev hprev' r o, hstep, hrow]
      by_cases h1 : n % 22 = 21
      · rw [outsAt0_C m c ⟨n, hn⟩ h0 h1]
        dsimp only
        refine (congrFun (Steps.scratch_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) (outsAt0 m c (n - 1) hprev).2) (ix2 r o)).trans ?_
        refine (Update.update_apply (rowsBlk m c ⟨n, hn⟩) (gateBlk m c ⟨n, hn⟩) (upBlk m c ⟨n, hn⟩) (downBlk m c ⟨n, hn⟩) (outsAt0 m c (n - 1) hprev).2 r o).trans ?_
        rw [hacc]
      · rw [outsAt0_B m c ⟨n, hn⟩ h0 h1]
        dsimp only
        refine (congrFun (Steps.scratch_mid (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (iblk m c 3 ⟨n, hn⟩) (outsAt0 m c (n - 1) hprev).2) (ix2 r o)).trans ?_
        refine (Update.update_apply (rowsBlk m c ⟨n, hn⟩) (gateBlk m c ⟨n, hn⟩) (upBlk m c ⟨n, hn⟩) (downBlk m c ⟨n, hn⟩) (outsAt0 m c (n - 1) hprev).2 r o).trans ?_
        rw [hacc]

end Cert.KernelIdeal.Accumulate

end
-- ==== Proof.Arrays.lean ====
/-
  The arrays the kernel's region finds, as functions of the program's arguments, over the extended reals.

  Before the region the host prepares four arrays:
    * the input rows: the [2, 4096, 2048] input laid out as 8192 rows of 2048 (row `4096·b + s` is row (b, s));
    * the gate and up weights: a [5504 × 2048] array of table entries looked up by the integer codes, with 128 rows
      of zeros appended (5632 rows);
    * the down weights: a [2048 × 5504] array looked up the same way, with 128 columns of zeros appended.
  A change of float format is the identity here, so each array is its lookup (or the input) read at the matching
  index, and zero in the appended part.
-/
import proofs.«423223_j50663434223830_3_alg».proof.Proof.Gen.KernelIdeal.Frame
import Idealize.ShloMosaic.Lib.StableHlo.Run
import Idealize.ShloMosaic.Lib.Pipeline.Value
import Idealize.ShloMosaic.Lib.KernelVsHost
import Idealize.ShloMosaic.Lib.ValueIdx

noncomputable section

open Idealize.ShloMosaic Idealize.ShloMosaic.TcCoe Idealize.SL.Sem Idealize.ShloMosaic.ValueIdx

namespace Cert.KernelIdeal.Arrays

open Cert.KernelIdeal Cert.KernelIdeal.Gen

/-- The table looked up at a [5504 × 2048] array of codes (a negative code counted from the table's end). -/
def lookupRows (lut : (⟨S16, .f32⟩ : BufTy).Contents (Elt Ideal)) (idx : (⟨S5504x2048, .i32⟩ : BufTy).Contents (Elt Ideal)) :
    (⟨S5504x2048, .f32⟩ : BufTy).Contents (Elt Ideal) :=
  Host.gather gather_S16_S5504x2048x1_S5504x2048_n_0_n_n_0_2_1 lut
    (broadcastInDim S5504x2048x1 ![0, 1] bcast_S5504x2048_S5504x2048x1_0_1
      (select (cmpi .slt idx (broadcastInDim S5504x2048 ![] bcast_S_S5504x2048 (constantI S_ 32 0#32)))
        (addi idx (broadcastInDim S5504x2048 ![] bcast_S_S5504x2048 (constantI S_ 32 16#32))) idx))

/-- The table looked up at a [2048 × 5504] array of codes. -/
def lookupCols (lut : (⟨S16, .f32⟩ : BufTy).Contents (Elt Ideal)) (idx : (⟨S2048x5504, .i32⟩ : BufTy).Contents (Elt Ideal)) :
    (⟨S2048x5504, .f32⟩ : BufTy).Contents (Elt Ideal) :=
  Host.gather gather_S16_S2048x5504x1_S2048x5504_n_0_n_n_0_2_1 lut
    (broadcastInDim S2048x5504x1 ![0, 1] bcast_S2048x5504_S2048x5504x1_0_1
      (select (cmpi .slt idx (broadcastInDim S2048x5504 ![] bcast_S_S2048x5504 (constantI S_ 32 0#32)))
        (addi idx (broadcastInDim S2048x5504 ![] bcast_S_S2048x5504 (constantI S_ 32 16#32))) idx))

variable (m : (ℓ : Loc nD τ sig) → Buf (Elt Ideal) ℓ)

/-! ### The arrays as terms -/

theorem rows_eq (c : Dev nD) : (V m c main_v1 : S8192x2048.Idx → EReal)
    = truncf (F := Ideal) .bf16 (shapeCast S8192x2048 (m ((c : Thread nD τ).loc main_arg0)) shapeCasts_S2x4096x2048_S8192x2048) bitsLt_bf16_f32 := by
  unfold Gen.V Gen.V0
  simp only [Gen.hostOps0, Gen.hostOps0_1, Gen.hostOps0_2, Gen.hostOps0_3, Gen.hostOps0_4, Gen.hostOps0_5, List.flatten_cons, List.flatten_nil, List.append_nil, List.cons_append, List.nil_append]
  after_results_simp <;> rfl

theorem gate_eq (c : Dev nD) : (V m c main_v26 : S5632x2048.Idx → EReal)
    = pad S5632x2048 ![0, 0] ![128, 0] ![0, 0] (truncf (F := Ideal) .bf16 (lookupRows (m ((c : Thread nD τ).loc main_arg1)) (m ((c : Thread nD τ).loc main_arg2))) bitsLt_bf16_f32)
        (sitofp (F := Ideal) .bf16 (constantI S_ 32 0#32)) pads_S5504x2048_S5632x2048_01280_000 h_S_ := by
  unfold Gen.V Gen.V0
  simp only [Gen.hostOps0, Gen.hostOps0_1, Gen.hostOps0_2, Gen.hostOps0_3, Gen.hostOps0_4, Gen.hostOps0_5, List.flatten_cons, List.flatten_nil, List.append_nil, List.cons_append, List.nil_append]
  after_results_simp <;> rfl

theorem up_eq (c : Dev nD) : (V m c main_v27 : S5632x2048.Idx → EReal)
    = pad S5632x2048 ![0, 0] ![128, 0] ![0, 0] (truncf (F := Ideal) .bf16 (lookupRows (m ((c : Thread nD τ).loc main_arg1)) (m ((c : Thread nD τ).loc main_arg3))) bitsLt_bf16_f32)
        (sitofp (F := Ideal) .bf16 (constantI S_ 32 0#32)) pads_S5504x2048_S5632x2048_01280_000 h_S_ := by
  unfold Gen.V Gen.V0
  simp only [Gen.hostOps0, Gen.hostOps0_1, Gen.hostOps0_2, Gen.hostOps0_3, Gen.hostOps0_4, Gen.hostOps0_5, List.flatten_cons, List.flatten_nil, List.append_nil, List.cons_append, List.nil_append]
  after_results_simp <;> rfl

theorem down_eq (c : Dev nD) : (V m c main_v28 : S2048x5632.Idx → EReal)
    = pad S2048x5632 ![0, 0] ![0, 128] ![0, 0] (truncf (F := Ideal) .bf16 (lookupCols (m ((c : Thread nD τ).loc main_arg1)) (m ((c : Thread nD τ).loc main_arg4))) bitsLt_bf16_f32)
        (sitofp (F := Ideal) .bf16 (constantI S_ 32 0#32)) pads_S2048x5504_S2048x5632_000_01280 h_S_ := by
  unfold Gen.V Gen.V0
  simp only [Gen.hostOps0, Gen.hostOps0_1, Gen.hostOps0_2, Gen.hostOps0_3, Gen.hostOps0_4, Gen.hostOps0_5, List.flatten_cons, List.flatten_nil, List.append_nil, List.cons_append, List.nil_append]
  after_results_simp <;> rfl

/-! ### The arrays at an index -/

/-- Row `4096·b + s` of the row array is row (b, s) of the input. -/
theorem rows_at (c : Dev nD) (b : Fin 2) (s : Fin 4096) (h : Fin 2048) (R : Fin 8192) (hR : R.val = 4096 * b.val + s.val) :
    (V m c main_v1 : S8192x2048.Idx → EReal) (ix2 R h) = (m ((c : Thread nD τ).loc main_arg0)) (ix3 b s h) := by
  rw [rows_eq]
  show shapeCast S8192x2048 (m ((c : Thread nD τ).loc main_arg0)) shapeCasts_S2x4096x2048_S8192x2048 (ix2 R h) = _
  refine shapeCast_apply _ _ (ix2 R h) (ix3 b s h) ?_
  rw [Shape.rowMajor_val_three, Shape.rowMajor_val_two]
  show (b.val * 4096 + s.val) * 2048 + h.val = R.val * 2048 + h.val
  rw [hR]; omega

/-- The value appended by the padding is the extended real zero. -/
theorem pad_value : sitofp (F := Ideal) .bf16 (constantI S_ 32 0#32) (Shape.Idx.first h_S_) = 0 := by
  show (((0#32 : BitVec 32).toInt : ℝ) : EReal) = 0
  simp

/-- Below row 5504 the gate weights are the looked-up table entries. -/
theorem gate_at (c : Dev nD) (k : Fin 5632) (hk : k.val < 5504) (h : Fin 2048) :
    (V m c main_v26 : S5632x2048.Idx → EReal) (ix2 k h)
      = lookupRows (m ((c : Thread nD τ).loc main_arg1)) (m ((c : Thread nD τ).loc main_arg2)) (ix2 ⟨k.val, hk⟩ h) := by
  rw [gate_eq]
  exact pad_apply_of_inside _ _ _ _ _ pads_S5504x2048_S5632x2048_01280_000 h_S_ (ix2 k h) (ix2 ⟨k.val, hk⟩ h) (fun a => by
    match a with
    | ⟨0, _⟩ => show k.val = 0 + k.val * (0 + 1); omega
    | ⟨1, _⟩ => show h.val = 0 + h.val * (0 + 1); omega)

/-- Below row 5504 the up weights are the looked-up table entries. -/
theorem up_at (c : Dev nD) (k : Fin 5632) (hk : k.val < 5504) (h : Fin 2048) :
    (V m c main_v27 : S5632x2048.Idx → EReal) (ix2 k h)
      = lookupRows (m ((c : Thread nD τ).loc main_arg1)) (m ((c : Thread nD τ).loc main_arg3)) (ix2 ⟨k.val, hk⟩ h) := by
  rw [up_eq]
  exact pad_apply_of_inside _ _ _ _ _ pads_S5504x2048_S5632x2048_01280_000 h_S_ (ix2 k h) (ix2 ⟨k.val, hk⟩ h) (fun a => by
    match a with
    | ⟨0, _⟩ => show k.val = 0 + k.val * (0 + 1); omega
    | ⟨1, _⟩ => show h.val = 0 + h.val * (0 + 1); omega)

/-- Below column 5504 the down weights are the looked-up table entries, -/
theorem down_at (c : Dev nD) (o : Fin 2048) (k : Fin 5632) (hk : k.val < 5504) :
    (V m c main_v28 : S2048x5632.Idx → EReal) (ix2 o k)
      = lookupCols (m ((c : Thread nD τ).loc main_arg1)) (m ((c : Thread nD τ).loc main_arg4)) (ix2 o ⟨k.val, hk⟩) := by
  rw [down_eq]
  exact pad_apply_of_inside _ _ _ _ _ pads_S2048x5504_S2048x5632_000_01280 h_S_ (ix2 o k) (ix2 o ⟨k.val, hk⟩) (fun a => by
    match a with
    | ⟨0, _⟩ => show o.val = 0 + o.val * (0 + 1); omega
    | ⟨1, _⟩ => show k.val = 0 + k.val * (0 + 1); omega)

/-- and from column 5504 on they are zero. -/
theorem down_pad (c : Dev nD) (o : Fin 2048) (k : Fin 5632) (hk : 5504 ≤ k.val) :
    (V m c main_v28 : S2048x5632.Idx → EReal) (ix2 o k) = (0 : EReal) := by
  rw [down_eq]
  refine (pad_apply_of_not_inside _ _ _ _ _ pads_S2048x5504_S2048x5632_000_01280 h_S_ (ix2 o k) (1 : Fin 2) ?_).trans pad_value
  show ¬(0 ≤ k.val ∧ (k.val - 0) % (0 + 1) = 0 ∧ (k.val - 0) / (0 + 1) < 5504)
  omega

end Cert.KernelIdeal.Arrays

end
-- ==== Proof.Result.lean ====
/-
  The kernel's result is the gated layer.

  A row block's last step has added all 22·256 = 5632 padded hidden units' contributions; the 128 padded units have a
  zero down weight and contribute nothing, and below 5504 the padded weight arrays are the looked-up ones, so the
  accumulator then holds the layer's outputs for its 512 rows (`full_sum`). That step copies the accumulator to the
  output block, which is written back to rows `512·(t/22) …` of the [8192 × 2048] result array; the 16 write-backs tile
  the array (`final`). After the region the host lays the array out as [2, 4096, 2048]: entry (b, s, o) is entry
  (4096·b + s, o), and row `4096·b + s` of the row array is row (b, s) of the input (`result_eq`).
-/
import proofs.«423223_j50663434223830_3_alg».proof.Proof.Accumulate
import proofs.«423223_j50663434223830_3_alg».proof.Proof.Arrays
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accumulate

variable (m : (ℓ : Loc nD τ sig) → Buf (Elt Ideal) ℓ) (ρ : Dev nD → PrngReg)

/-- The three weight arrays, looked up from the table by the integer codes. -/
abbrev gateW (c : Dev nD) := Arrays.lookupRows (m ((c : Thread nD τ).loc main_arg1)) (m ((c : Thread nD τ).loc main_arg2))
abbrev upW (c : Dev nD) := Arrays.lookupRows (m ((c : Thread nD τ).loc main_arg1)) (m ((c : Thread nD τ).loc main_arg3))
abbrev downW (c : Dev nD) := Arrays.lookupCols (m ((c : Thread nD τ).loc main_arg1)) (m ((c : Thread nD τ).loc main_arg4))

/-- The layer's outputs for row `R` of the row array. -/
def rowOut (c : Dev nD) (R : Fin 8192) (o : Fin 2048) : EReal :=
  GatedLayer.outRow (fun h => rowsArr m c (ix2 R h)) (gateW m c) (upW m c) (downW m c) o

/-- The [8192 × 2048] array the region leaves: entry (R, o) is output `o` of row `R`. -/
def out2d (c : Dev nD) : S8192x2048.Idx → EReal := fun i => rowOut m c (i 0) (i 1)

/-- All 5632 padded contributions sum to the layer's output: the padding contributes zero. -/
theorem full_sum (c : Dev nD) (R : Fin 8192) (o : Fin 2048) :
    ∑ k ∈ Finset.range 5632, BlockSum.natExt (contrib m c R o) k = rowOut m c R o := by
  unfold rowOut GatedLayer.outRow
  refine BlockSum.sum_range_pad (by norm_num : 5504 ≤ 5632) (contrib m c R o) _ (fun k hk => ?_) (fun k hk hge => ?_)
  · exact GatedLayer.term_congr _ _ _ _ _ _ _ _ o o ⟨k, lt_of_lt_of_le hk (by norm_num)⟩ ⟨k, hk⟩ (fun h => rfl)
      (fun h => Arrays.gate_at m c ⟨k, lt_of_lt_of_le hk (by norm_num)⟩ hk h)
      (fun h => Arrays.up_at m c ⟨k, lt_of_lt_of_le hk (by norm_num)⟩ hk h)
      (Arrays.down_at m c o ⟨k, lt_of_lt_of_le hk (by norm_num)⟩ hk)
  · exact GatedLayer.term_eq_zero _ _ _ _ o ⟨k, hk⟩ (Arrays.down_pad m c o ⟨k, hk⟩ hge)

/-- At a row block's last step the output block is the accumulator. -/
theorem out_eq_scratch (c : Dev nD) (t : Fin cfg0.N) (h0 : ¬t.val % 22 = 0) (h1 : t.val % 22 = 21) :
    (outsAt0 m c t.val t.isLt).1 = (outsAt0 m c t.val t.isLt).2 := by
  rw [outsAt0_C m c t h0 h1]
  dsimp only
  exact (Steps.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (Steps.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-- WHAT A WRITE-BACK POINT WRITES is its block of `out2d`. -/
theorem flushed_eq (c : Dev nD) (t : Fin cfg0.N) (hf : (cfg0.win 4).flush t = true) :
    (dats m 0 c).flushed 4 t = ((cfg0.win 4).blk t).view.read (Elt Ideal) (out2d m c) := by
  have h1 : t.val % 22 = 21 := (flush0_4 t).mp hf
  have h0 : ¬t.val % 22 = 0 := by omega
  have hN : t.val < 352 := lt_of_lt_of_eq t.isLt N_0
  show (cfg0.win 4).cut (grid0.coords t) ((dats m 0 c).after 4 t) = _
  rw [after0_4, out_eq_scratch m c t h0 h1]
  show (fun j : S512x2048.Idx => (outsAt0 m c t.val t.isLt).2 j) = fun j : S512x2048.Idx => out2d m c (((cfg0.win 4).blk t).view.emb j)
  funext j
  obtain ⟨r, o, rfl⟩ : ∃ (r : Fin 512) (o : Fin 2048), j = ix2 r o := ⟨j 0, j 1, eq_ix2 j⟩
  have hemb : ((cfg0.win 4).blk t).view.emb (ix2 r o) = ix2 (rowOf t.val hN r) o := funext fun a => Fin.ext (by
    match a with
    | ⟨0, _⟩ => show win0_4.index t 0 * 512 + 1 * r.val = 512 * (t.val / 22) + r.val; rw [(block_index t).2.2.2.2.2.2.2.2.1]; omega
    | ⟨1, _⟩ => show win0_4.index t 1 * 2048 + 1 * o.val = o.val; rw [(block_index t).2.2.2.2.2.2.2.2.2]; omega)
  rw [hemb, scratch_eq m c t.val t.isLt hN r o, h1]
  exact full_sum m c (rowOf t.val hN r) o

/-- An index of the result array is in point `t`'s block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v29).slice (win0_4.rect t)).set ↔ _
  rw [View.set_slice_whole, Rect.mem_set_unit]
  exact Iff.rfl

/-- THE RESULT ARRAY after the region: row `R` is written by the last step of row block `R / 512`. -/
theorem final (c : Dev nD) : (dats m 0 c).arrAt 4 cfg0.N = out2d m c :=
  (dats m 0 c).arrAt_eq_of_cover 4 (out2d m c) (flushed_eq m c) fun i => by
    have hi0 : (i 0).val < 8192 := (i 0).isLt
    have hi1 : (i 1).val < 2048 := (i 1).isLt
    have hlt : 22 * ((i 0).val / 512) + 21 < cfg0.N := lt_of_lt_of_eq (by omega) N_0.symm
    refine ⟨⟨22 * ((i 0).val / 512) + 21, hlt⟩, (flush0_4 _).mpr (by show (22 * ((i 0).val / 512) + 21) % 22 = 21; omega), ?_⟩
    rw [mem_blk]
    have e0 := (block_index ⟨22 * ((i 0).val / 512) + 21, hlt⟩).2.2.2.2.2.2.2.2.1
    have e1 := (block_index ⟨22 * ((i 0).val / 512) + 21, hlt⟩).2.2.2.2.2.2.2.2.2
    have ed : (22 * ((i 0).val / 512) + 21) / 22 = (i 0).val / 512 := by omega
    intro a
    match a with
    | ⟨0, _⟩ =>
      show win0_4.index _ 0 * 512 ≤ (i 0).val ∧ (i 0).val < win0_4.index _ 0 * 512 + 512
      rw [e0]; show (22 * ((i 0).val / 512) + 21) / 22 * 512 ≤ (i 0).val ∧ (i 0).val < (22 * ((i 0).val / 512) + 21) / 22 * 512 + 512
      rw [ed]; omega
    | ⟨1, _⟩ =>
      show win0_4.index _ 1 * 2048 ≤ (i 1).val ∧ (i 1).val < win0_4.index _ 1 * 2048 + 2048
      rw [e1]; omega

/-- After the region the host lays the result array out as [2, 4096, 2048]. -/
theorem tail_eq (c : Dev nD) :
    Pipeline.afterTail₀ cfgs (dats m) 0 (V0 m) [hostOps1] c main_v30
      = shapeCast S2x4096x2048 (out2d m c) shapeCasts_S8192x2048_S2x4096x2048 := by
  unfold Pipeline.afterTail₀
  show StableHlo.after hostOps1 _ (Proc.devRef .tc main_v30) = _
  after_results
  have e := (Pipeline.withArrays_arr spec0 launch0.win.arr_inj c (V0 m c) (fun w => (dats m 0 c).arrAt w (cfgs 0).N) 4).trans (final m c)
  exact congrArg (fun A => shapeCast S2x4096x2048 A shapeCasts_S8192x2048_S2x4096x2048) e

/-- Entry (b, s, o) of that layout is output `o` of row (b, s) of the input: the layer. -/
theorem result_eq (c : Dev nD) :
    shapeCast S2x4096x2048 (out2d m c) shapeCasts_S8192x2048_S2x4096x2048
      = GatedLayer.layer (m ((c : Thread nD τ).loc main_arg0)) (gateW m c) (upW m c) (downW m c) := by
  funext i
  obtain ⟨b, s, o, rfl⟩ : ∃ (b : Fin 2) (s : Fin 4096) (o : Fin 2048), i = ix3 b s o := ⟨i 0, i 1, i 2, eq_ix3 i⟩
  rw [GatedLayer.layer_apply]
  have hR : 4096 * b.val + s.val < 8192 := by have := b.isLt; have := s.isLt; omega
  refine (shapeCast_apply _ _ (ix3 b s o) (ix2 ⟨4096 * b.val + s.val, hR⟩ o) ?_).trans ?_
  · rw [Shape.rowMajor_val_two, Shape.rowMajor_val_three]
    show (4096 * b.val + s.val) * 2048 + o.val = (b.val * 4096 + s.val) * 2048 + o.val
    omega
  · show GatedLayer.outRow (fun h => rowsArr m c (ix2 ⟨4096 * b.val + s.val, hR⟩ h)) (gateW m c) (upW m c) (downW m c) o = _
    refine congrArg (fun xr => GatedLayer.outRow xr (gateW m c) (upW m c) (downW m c) o) (funext fun h => ?_)
    exact Arrays.rows_at m c b s h ⟨4096 * b.val + s.val, hR⟩ rfl

/-- THE RUN, READ: every weakly fair execution ends with the result at the layer of the arguments, the arguments unchanged. -/
theorem run : θ_run defs (onTc (τ := τ) (main (F := Ideal))) ⟨m, fun _ => 0, ρ⟩ fun r => ∀ c : Dev nD,
      r.2.mem ((c : Thread nD τ).loc main_v30) = GatedLayer.layer (m ((c : Thread nD τ).loc main_arg0)) (gateW m c) (upW m c) (downW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(((h c).2 main_v30 (Pipeline.mem_restRefs_of main_v30 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefLayer.lean ====
/-
  The reference computes the gated layer.

  Read one operation at a time, the reference's result at (b, s, c) is a sum over the 5504 hidden units of
  `h[b, s, k] · Wd[c, k]`, with `h = (g · (1 / (1 + e^(−g)))) · u` and `g`, `u` the products of row (b, s) with the
  gate and up weight rows. The quotient it spells out is the logistic function, and the literal it divides is the
  extended real one, so this is `GatedLayer.layer` of the input and the three looked-up weight arrays.
-/
import proofs.«423223_j50663434223830_3_alg».proof.Proof.Gen.ReferenceIdeal.Read
import proofs.«423223_j50663434223830_3_alg».proof.Proof.GatedLayer
import Idealize.ShloMosaic.Lib.IdealHost

noncomputable section

open Idealize.ShloMosaic Idealize.ShloMosaic.ValueIdx

namespace Cert.ReferenceIdeal.RefLayer

open Cert.ReferenceIdeal Cert.ReferenceIdeal.Gen Cert.ReferenceIdeal.Read

/-- The reference's hidden array at (b, s, k) is hidden unit `k` of row (b, s). -/
theorem hidden_eq (x0 : (⟨S2x4096x2048, .f32⟩ : BufTy).Contents (Elt Ideal)) (x1 : (⟨S16, .f32⟩ : BufTy).Contents (Elt Ideal))
    (x2 x3 : (⟨S5504x2048, .i32⟩ : BufTy).Contents (Elt Ideal)) (b : Fin 2) (s : Fin 4096) (k : Fin 5504) :
    val_main_v17 (F := Ideal) x0 x1 x2 x3 (ix3 b s k)
      = GatedLayer.hidden (fun h => x0 (ix3 b s h)) (val_main_v6 (F := Ideal) x1 x2) (val_main_v14 (F := Ideal) x1 x3) k := by
  have gl : ∀ h : Fin 2048, lidx_main_v7 (ix3 b s k) h = ix3 b s h := fun h => funext fun a => Fin.ext (by
    match a with | ⟨0, _⟩ => rfl | ⟨1, _⟩ => rfl | ⟨2, _⟩ => rfl)
  have gr : ∀ h : Fin 2048, ridx_main_v7 (ix3 b s k) h = ix2 k h := fun h => funext fun a => Fin.ext (by
    match a with | ⟨0, _⟩ => rfl | ⟨1, _⟩ => rfl)
  have ul : ∀ h : Fin 2048, lidx_main_v15 (ix3 b s k) h = ix3 b s h := fun h => funext fun a => Fin.ext (by
    match a with | ⟨0, _⟩ => rfl | ⟨1, _⟩ => rfl | ⟨2, _⟩ => rfl)
  have ur : ∀ h : Fin 2048, ridx_main_v15 (ix3 b s k) h = ix2 k h := fun h => funext fun a => Fin.ext (by
    match a with | ⟨0, _⟩ => rfl | ⟨1, _⟩ => rfl)
  rw [val_main_v17_apply, val_main_v16_apply, val_main_call0_v5_apply, val_main_call0_v4_apply, val_main_call0_cst_0_apply,
    val_main_call0_v3_apply, val_main_call0_v2_apply, val_main_call0_cst_apply, val_main_call0_v1_apply,
    val_main_call0_v0_apply, val_main_v7_apply, val_main_v15_apply]
  simp only [gl, gr, ul, ur, Ideal.ofBits_def, Ideal.ofBits_one_f32]
  rfl

/-- The reference's result is the layer of its input and its three weight arrays. -/
theorem result_eq (x0 : (⟨S2x4096x2048, .f32⟩ : BufTy).Contents (Elt Ideal)) (x1 : (⟨S16, .f32⟩ : BufTy).Contents (Elt Ideal))
    (x2 x3 : (⟨S5504x2048, .i32⟩ : BufTy).Contents (Elt Ideal)) (x4 : (⟨S2048x5504, .i32⟩ : BufTy).Contents (Elt Ideal)) :
    val_main_v25 (F := Ideal) x0 x1 x2 x3 x4
      = GatedLayer.layer x0 (val_main_v6 (F := Ideal) x1 x2) (val_main_v14 (F := Ideal) x1 x3) (val_main_v24 (F := Ideal) x1 x4) := by
  funext i
  obtain ⟨b, s, c, rfl⟩ : ∃ (b : Fin 2) (s : Fin 4096) (c : Fin 2048), i = ix3 b s c := ⟨i 0, i 1, i 2, eq_ix3 i⟩
  rw [GatedLayer.layer_apply, val_main_v25_apply]
  unfold GatedLayer.outRow GatedLayer.term
  refine Finset.sum_congr rfl fun k _ => ?_
  have el : lidx_main_v25 (ix3 b s c) k = ix3 b s k := funext fun a => Fin.ext (by
    match a with | ⟨0, _⟩ => rfl | ⟨1, _⟩ => rfl | ⟨2, _⟩ => rfl)
  have er : ridx_main_v25 (ix3 b s c) k = ix2 c k := funext fun a => Fin.ext (by
    match a with | ⟨0, _⟩ => rfl | ⟨1, _⟩ => rfl)
  rw [el, er, hidden_eq]

end Cert.ReferenceIdeal.RefLayer

end
-- ==== Proof.lean ====
/-
  The kernel and the reference compute the same gated feed-forward layer over the extended reals.

  Both programs look the three weight arrays up from a 16-entry table by integer codes, with the same operations, and
  apply  out[b, s, o] = ∑ₖ ((g · σ(g)) · u)[b, s, k] · Wd[o, k],  g = x · Wgᵀ,  u = x · Wuᵀ,  σ the logistic function.
    * The reference does it with three whole matrix products over the 5504 hidden units, spelling σ(g) as
      1 / (1 + e^(−g)), which is the logistic function.
    * The kernel lays the input out as 8192 rows, appends 128 zero hidden units to the weights (5632 = 22 · 256) and
      walks a 16 × 22 grid: 512 rows at a time, 256 hidden units per step, adding each step's partial product
      (g · σ(g) · u) · wdᵀ to an accumulator that starts from zero at a row block's first step and is written out at
      its last. A change of float format is the identity over the extended reals.
  The two sums differ only in grouping (one sum of 5504 terms against 22 blocks of 256 terms, the last 128 of them
  zero because their down weights are zero), and addition of extended reals is commutative and associative; no
  finiteness of the inputs is used. The kernel's idealization rewrote no operation, so `preserves` is trivial.
  The frames of the two kernel programs and the run of the reference are the generated ones.
-/
import proofs.«423223_j50663434223830_3_alg».proof.Defs
import proofs.«423223_j50663434223830_3_alg».proof.Proof.Gen.Kernel
import proofs.«423223_j50663434223830_3_alg».proof.Proof.Gen.Kernel.Skeleton
import proofs.«423223_j50663434223830_3_alg».proof.Proof.Gen.Kernel.Launch
import proofs.«423223_j50663434223830_3_alg».proof.Proof.Gen.Kernel.Points
import proofs.«423223_j50663434223830_3_alg».proof.Proof.Gen.Kernel.Frame
import proofs.«423223_j50663434223830_3_alg».proof.Proof.Gen.KernelIdeal
import proofs.«423223_j50663434223830_3_alg».proof.Proof.Gen.KernelIdeal.Skeleton
import proofs.«423223_j50663434223830_3_alg».proof.Proof.Gen.KernelIdeal.Launch
import proofs.«423223_j50663434223830_3_alg».proof.Proof.Gen.KernelIdeal.Points
import proofs.«423223_j50663434223830_3_alg».proof.Proof.Gen.KernelIdeal.Frame
import proofs.«423223_j50663434223830_3_alg».proof.Proof.Gen.ReferenceIdeal
import proofs.«423223_j50663434223830_3_alg».proof.Proof.Gen.Pre_finite_inputs
import proofs.«423223_j50663434223830_3_alg».proof.Proof.Gen.ReferenceIdeal.Run
import proofs.«423223_j50663434223830_3_alg».proof.Proof.Gen.ReferenceIdeal.Read
import proofs.«423223_j50663434223830_3_alg».proof.Proof.Result
import proofs.«423223_j50663434223830_3_alg».proof.Proof.RefLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the gated layer of arguments that agree: the kernel's by its accumulation over
    the grid, the reference's operation by operation; the looked-up weight arrays are the same terms. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefLayer.result_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
